-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S200000x64 : Shape := ⟨2, ![200000, 64]⟩
abbrev S400000 : Shape := ⟨1, ![400000]⟩
abbrev S256x256 : Shape := ⟨2, ![256, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S400000 : S_.BroadcastsInDim S400000 (![] : Fin 0 → Fin S400000.rank)
  reducesTo_S400000_S_d0 : S400000.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S100000x256 .f32) (main_arg1 : FVec F S200000x64 .f32) (main_arg2 : IVec S400000 32) (main_arg3 : IVec S400000 32) (main_arg4 : FVec F S400000 .f32) (main_arg5 : FVec F S256x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S400000 .f32 := Host.absf main_arg4
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S100000x256 : Shape := ⟨2, ![100000, 256]⟩
abbrev S200000x64 : Shape := ⟨2, ![200000, 64]⟩
abbrev S400000 : Shape := ⟨1, ![400000]⟩
abbrev S256x256 : Shape := ⟨2, ![256, 256]⟩
abbrev S5000x256 : Shape := ⟨2, ![5000, 256]⟩
abbrev S_ : Shape := ⟨0, ![]⟩
abbrev S400000x1 : Shape := ⟨2, ![400000, 1]⟩
abbrev S400000x256 : Shape := ⟨2, ![400000, 256]⟩
abbrev S200000x256 : Shape := ⟨2, ![200000, 256]⟩
abbrev S2000x256 : Shape := ⟨2, ![2000, 256]⟩

abbrev nBuf : Space → Nat
  | .hbm => 24
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S200000x64, .f32⟩
  | .hbm, ⟨2, _⟩ => ⟨S400000, .i32⟩
  | .hbm, ⟨3, _⟩ => ⟨S400000, .i32⟩
  | .hbm, ⟨4, _⟩ => ⟨S400000, .f32⟩
  | .hbm, ⟨5, _⟩ => ⟨S256x256, .f32⟩
  | .hbm, ⟨6, _⟩ => ⟨S100000x256, .f32⟩
  | .hbm, ⟨7, _⟩ => ⟨S_, .i32⟩
  | .hbm, ⟨8, _⟩ => ⟨S400000, .i32⟩
  | .hbm, ⟨9, _⟩ => ⟨S400000, .i1⟩
  | .hbm, ⟨10, _⟩ => ⟨S_, .i32⟩
  | .hbm, ⟨11, _⟩ => ⟨S400000, .i32⟩
  | .hbm, ⟨12, _⟩ => ⟨S400000, .i32⟩
  | .hbm, ⟨13, _⟩ => ⟨S400000, .i32⟩
  | .hbm, ⟨14, _⟩ => ⟨S400000x1, .i32⟩
  | .hbm, ⟨15, _⟩ => ⟨S400000x256, .f32⟩
  | .hbm, ⟨16, _⟩ => ⟨S400000x1, .f32⟩
  | .hbm, ⟨17, _⟩ => ⟨S400000x256, .f32⟩
  | .hbm, ⟨18, _⟩ => ⟨S400000x256, .f32⟩
  | .hbm, ⟨19, _⟩ => ⟨S_, .f32⟩
  | .hbm, ⟨20, _⟩ => ⟨S200000x256, .f32⟩
  | .hbm, ⟨21, _⟩ => ⟨S400000x1, .i32⟩
  | .hbm, ⟨22, _⟩ => ⟨S200000x256, .f32⟩
  | .hbm, ⟨23, _⟩ => ⟨S200000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S200000x256 : S_.BroadcastsInDim S200000x256 (![] : Fin 0 → Fin S200000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  dot_S5000x256_S256x256_S5000x256_1_0_0_1_n_n_wf : DotDims.WF S5000x256 S256x256 S5000x256 [1] [0] [0] [1] [] []
  gather_S100000x256_S400000x1_S400000x256_1_0_n_n_0_1_1256_wf : GatherDims.WF S100000x256 S400000x1 S400000x256 [1] [0] [] [0] [] 1 ![1, 256]
  scatter_S200000x256_S400000x1_S400000x256_1_0_0_1_wf : ScatterDims.WF S200000x256 S400000x1 S400000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S200000x256.size a
  hwx1_0 : ∀ i : grid1.Coords, EltTy.bits .f32 = 32 ∨ (Rect.block (s := S200000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S200000x256.size a
  hwx1_1 : ∀ i : grid1.Coords, EltTy.bits .f32 = 32 ∨ (Rect.block (s := S200000x256) S2000x256.size (cc1_transform_1 i) (hinb1_1 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S200000x64 : Shape := ⟨2, ![200000, 64]⟩
abbrev S400000 : Shape := ⟨1, ![400000]⟩
abbrev S256x256 : Shape := ⟨2, ![256, 256]⟩
abbrev S_ : Shape := ⟨0, ![]⟩
abbrev S400000x1 : Shape := ⟨2, ![400000, 1]⟩
abbrev S400000x256 : Shape := ⟨2, ![400000, 256]⟩
abbrev S200000x256 : Shape := ⟨2, ![200000, 256]⟩

abbrev nBuf : Space → Nat
  | .hbm => 38
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S200000x64, .f32⟩
  | .hbm, ⟨2, _⟩ => ⟨S400000, .i32⟩
  | .hbm, ⟨3, _⟩ => ⟨S400000, .i32⟩
  | .hbm, ⟨4, _⟩ => ⟨S400000, .f32⟩
  | .hbm, ⟨5, _⟩ => ⟨S256x256, .f32⟩
  | .hbm, ⟨6, _⟩ => ⟨S100000x256, .f32⟩
  | .hbm, ⟨7, _⟩ => ⟨S_, .i32⟩
  | .hbm, ⟨8, _⟩ => ⟨S400000, .i32⟩
  | .hbm, ⟨9, _⟩ => ⟨S400000, .i1⟩
  | .hbm, ⟨10, _⟩ => ⟨S_, .i32⟩
  | .hbm, ⟨11, _⟩ => ⟨S400000, .i32⟩
  | .hbm, ⟨12, _⟩ => ⟨S400000, .i32⟩
  | .hbm, ⟨13, _⟩ => ⟨S400000, .i32⟩
  | .hbm, ⟨14, _⟩ => ⟨S400000x1, .i32⟩
  | .hbm, ⟨15, _⟩ => ⟨S400000x256, .f32⟩
  | .hbm, ⟨16, _⟩ => ⟨S400000x1, .f32⟩
  | .hbm, ⟨17, _⟩ => ⟨S400000x256, .f32⟩
  | .hbm, ⟨18, _⟩ => ⟨S400000x256, .f32⟩
  | .hbm, ⟨19, _⟩ => ⟨S_, .f32⟩
  | .hbm, ⟨20, _⟩ => ⟨S200000x256, .f32⟩
  | .hbm, ⟨21, _⟩ => ⟨S400000x1, .i32⟩
  | .hbm, ⟨22, _⟩ => ⟨S200000x256, .f32⟩
  | .hbm, ⟨23, _⟩ => ⟨S_, .f32⟩
  | .hbm, ⟨24, _⟩ => ⟨S200000x256, .f32⟩
  | .hbm, ⟨25, _⟩ => ⟨S200000x256, .i1⟩
  | .hbm, ⟨26, _⟩ => ⟨S_, .f32⟩
  | .hbm, ⟨27, _⟩ => ⟨S200000x256, .f32⟩
  | .hbm, ⟨28, _⟩ => ⟨S200000x256, .i1⟩
  | .hbm, ⟨29, _⟩ => ⟨S_, .f32⟩
  | .hbm, ⟨30, _⟩ => ⟨S_, .f32⟩
  | .hbm, ⟨31, _⟩ => ⟨S200000x256, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S200000x256, .f32⟩
  | .hbm, ⟨36, _⟩ => ⟨S200000x256, .f32⟩
  | .hbm, ⟨37, _⟩ => ⟨S200000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_cst_1 : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_v4 : Ref sig .tc := ⟨.hbm, 32, rfl⟩
abbrev main_call0_v5 : Ref sig .tc := ⟨.hbm, 33, rfl⟩
abbrev main_call0_cst_2 : Ref sig .tc := ⟨.hbm, 34, rfl⟩
abbrev main_call0_v6 : Ref sig .tc := ⟨.hbm, 35, rfl⟩
abbrev main_call0_v7 : Ref sig .tc := ⟨.hbm, 36, rfl⟩
abbrev main_v14 : Ref sig .tc := ⟨.hbm, 37, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S200000x256 : S_.BroadcastsInDim S200000x256 (![] : Fin 0 → Fin S200000x256.rank)
  dot_S100000x256_S256x256_S100000x256_1_0_0_1_n_n_wf : DotDims.WF S100000x256 S256x256 S100000x256 [1] [0] [0] [1] [] []
  gather_S100000x256_S400000x1_S400000x256_1_0_n_n_0_1_1256_wf : GatherDims.WF S100000x256 S400000x1 S400000x256 [1] [0] [] [0] [] 1 ![1, 256]
  scatter_S200000x256_S400000x1_S400000x256_1_0_0_1_wf : ScatterDims.WF S200000x256 S400000x1 S400000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibPlainDot.lean ====
import Idealize.ShloMosaic.PureOps.Ideal.Laws
import Idealize.ShloMosaic.Lib.ValueIdx
import proofs.«134357_j66511863546445_1_alg».proof.Proof.LibPlainMatmul

/-!
# The host's rows-by-columns matrix product, read at one entry

For the plain dimension numbers (`DotDims.plain M K N`: an `M × K` matrix times a `K × N` matrix, no batch axis) the
entry `(r, n)` of the host's `dot_general` over the extended reals is `Σₖ lhs (r, k) · rhs (k, n)`, whatever the
precision and the schedule key: the same sum the matrix unit's product into a zero accumulator has there.
-/

noncomputable section

namespace Idealize.ShloMosaic.PlainDot

open Idealize.ShloMosaic Idealize.ShloMosaic.ValueIdx Idealize.ShloMosaic.PlainMatmul

/-- The sum over the one contracted axis of a plain product at the entry `(r, n)`, re-indexed by the contracted
    coordinate itself. -/
theorem plain_contraction (M K N : Nat) {φ₁ φ₂ : FTy} (lhs : FVec Ideal ⟨2, ![M, K]⟩ φ₁) (rhs : FVec Ideal ⟨2, ![K, N]⟩ φ₂)
    (r : Fin M) (n : Fin N) :
    (∑ q : (DotDims.plain M K N).contr.Idx,
        lhs ((DotDims.plain M K N).lhsIdx (ix2 r n) q) * rhs ((DotDims.plain M K N).rhsIdx (ix2 r n) q))
      = ∑ k : Fin K, lhs (ix2 r k) * rhs (ix2 k n) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

/-- The host's product with plain dimension numbers at the entry `(r, n)`: the sum over the contracted coordinate `k`
    of `lhs (r, k) · rhs (k, n)`. -/
theorem dotGeneral_plain_apply (M K N : Nat) {φ₁ φ₂ : FTy} (prec : Option ContractPrecision) (sched : HostSchedule)
    (lhs : FVec Ideal ⟨2, ![M, K]⟩ φ₁) (rhs : FVec Ideal ⟨2, ![K, N]⟩ φ₂) (r : Fin M) (n : Fin N) :
    FloatOps.dotGeneral (DotDims.plain M K N) prec sched lhs rhs (ix2 r n)
      = ∑ k : Fin K, lhs (ix2 r k) * rhs (ix2 k n) := by
  rw [Ideal.dotGeneral_apply]
  exact plain_contraction M K N lhs rhs r n

end Idealize.ShloMosaic.PlainDot

end
-- ==== Proof.Region0Value.lean ====
import proofs.«134357_j66511863546445_1_alg».proof.Proof.Gen.KernelIdeal.Frame
import proofs.«134357_j66511863546445_1_alg».proof.Proof.LibPlainMatmul
import proofs.«134357_j66511863546445_1_alg».proof.Proof.LibPlainDot
import Idealize.ShloMosaic.Lib.Pipeline.Value
import Idealize.ShloMosaic.Lib.ValueIdx

/-!
# The first region: the dense product, block of rows by block of rows

The first kernel walks the 100000 × 256 input in 20 blocks of 5000 rows, the 256 × 256 weights resident. At every grid
point it loads its block and the weights, narrows both to the 16-bit float format — no change of value over the
extended reals — and stores their matrix product, accumulated from zero, as the same block of rows of the output.
Entry `(p, n)` of the block at point `t` is `Σₖ x (5000 t + p, k) · w (k, n)`, which is entry `(5000 t + p, n)` of the
product of the WHOLE input with the weights; the 20 blocks tile the output. So after the region the output array
is the host's `dot_general` of the two arrays as the region finds them.
-/

set_option maxRecDepth 16384

noncomputable section

open Idealize.ShloMosaic Idealize.ShloMosaic.TcCoe Idealize.SL.Sem
open Idealize.ShloMosaic.Pipeline (Dat)

namespace Cert.KernelIdeal.GemmRegion

open Cert.KernelIdeal Cert.KernelIdeal.Gen Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The whole product: the host's `dot_general` of a 100000 × 256 array with a 256 × 256 one, rows by columns. -/
def product (x : S100000x256.Idx → EReal) (w : S256x256.Idx → EReal) : S100000x256.Idx → EReal :=
  Host.dotGeneral (F := Ideal) (φ₁ := .f32) (φ₂ := .f32) (DotDims.plain 100000 256 256) none x w

/-- The whole product at the entry `(r, n)`. -/
theorem product_apply (x : S100000x256.Idx → EReal) (w : S256x256.Idx → EReal) (r : Fin 100000) (n : Fin 256) :
    product x w (ix2 r n) = ∑ k : Fin 256, x (ix2 r k) * w (ix2 k n) :=
  PlainDot.dotGeneral_plain_apply 100000 256 256 none .single x w r n

/-- What the body stores, at the entry `(p, n)` of its block: the sum over `k` of the loaded block's `(p, k)` times the
    loaded weights' `(k, n)` — the narrowing of both operands is the identity, the accumulator starts at zero. -/
theorem pay_gemm (x0 : Vec Ideal S5000x256 .f32) (x1 : Vec Ideal S256x256 .f32) (p : Fin 5000) (n : Fin 256) :
    k0_pay1 x0 x1 (ix2 p n) = ∑ k : Fin 256, x0 (ix2 p k) * x1 (ix2 k n) := by
  unfold k0_pay1
  exact PlainMatmul.matmul_plain_zero_apply 5000 256 256 none
    (truncf .bf16 x0 bitsLt_bf16_f32) (truncf .bf16 x1 bitsLt_bf16_f32) p n

/-- At grid point `t` the input's and the output's windows sit at block row `t`, block column 0; the weights' at
    block (0, 0). -/
theorem index_rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input's block at point `t` is rows `5000 t … 5000 t + 4999` of the input array. -/
theorem input_block_apply (c : Dev nD) (t : Fin cfg0.N) (p : Fin 5000) (k : Fin 256) (r : Fin 100000)
    (hr : r.val = t.val * 5000 + p.val) :
    (iblk0 V c 0 t : Vec Ideal S5000x256 .f32) (ix2 p k) = (V c main_arg0 : S100000x256.Idx → EReal) (ix2 r k) := by
  obtain ⟨e0, e1, -, -, -, -⟩ := index_rows0 t
  unfold iblk0
  rw [View.read_apply]
  show V c main_arg0 _ = V c main_arg0 _
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 256 + 1 * k.val = k.val; omega

/-- The weights' block at every point is the whole weight array. -/
theorem weight_block_apply (c : Dev nD) (t : Fin cfg0.N) (k n : Fin 256) :
    (iblk0 V c 1 t : Vec Ideal S256x256 .f32) (ix2 k n) = (V c main_arg5 : S256x256.Idx → EReal) (ix2 k n) := by
  obtain ⟨-, -, e2, e3, -, -⟩ := index_rows0 t
  unfold iblk0
  rw [View.read_apply]
  show V c main_arg5 _ = V c main_arg5 _
  refine congrArg (V c main_arg5) ?_
  funext a; apply Fin.ext
  match a with
  | ⟨0, _⟩ => show win0_1.index t (0 : Fin 2) * 256 + 1 * k.val = k.val; omega
  | ⟨1, _⟩ => show win0_1.index t (1 : Fin 2) * 256 + 1 * n.val = n.val; omega

/-- What grid point `t` writes back is block `t` of the whole product of the two arrays as the region finds them. -/
theorem flushed_gemm (c : Dev nD) (t : Fin cfg0.N) :
    (dat0 V c).flushed 2 t = ((cfg0.win 2).blk t).view.read (Elt Ideal) (product (V c main_arg0) (V c main_arg5)) := by
  have hN : cfg0.N = 20 := N_0
  obtain ⟨-, -, -, -, e4, e5⟩ := index_rows0 t
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x256) zero_offsets]
  funext j
  obtain ⟨p, n, rfl⟩ : ∃ (p : Fin 5000) (n : Fin 256), j = ix2 p n := ⟨j 0, j 1, eq_ix2 j⟩
  have ht : t.val < 20 := hN ▸ t.isLt
  let r : Fin 100000 := ⟨t.val * 5000 + p.val, by have := p.isLt; omega⟩
  have hemb : ((cfg0.win 2).blk t).view.emb (ix2 p n) = (ix2 r n : S100000x256.Idx) := by
    funext a; apply Fin.ext
    match a with
    | ⟨0, _⟩ => show win0_2.index t (0 : Fin 2) * 5000 + 1 * p.val = t.val * 5000 + p.val; omega
    | ⟨1, _⟩ => show win0_2.index t (1 : Fin 2) * 256 + 1 * n.val = n.val; omega
  rw [View.read_apply, hemb, product_apply]
  refine (pay_gemm (iblk0 V c 0 t) (iblk0 V c 1 t) p n).trans ?_
  refine Finset.sum_congr rfl fun k _ => ?_
  rw [input_block_apply V c t p k r rfl, weight_block_apply V c t k n]

/-- An index of the output array lies in point `t`'s block iff each coordinate lies in the block's range. -/
theorem mem_block_gemm (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- Row `r` of the output lies in the block of grid point `r / 5000`: the blocks cover the array. -/
theorem cover_gemm (i : S100000x256.Idx) :
    ∃ t : Fin cfg0.N, (cfg0.win 2).flush t = true ∧ i ∈ ((cfg0.win 2).blk t).view.set := by
  have hi0 : (i 0).val < 100000 := idx2_lt0 i
  have hi1 : (i 1).val < 256 := idx2_lt1 i
  have hN : cfg0.N = 20 := N_0
  let t : Fin cfg0.N := ⟨(i 0).val / 5000, by rw [hN]; omega⟩
  have ht : t.val = (i 0).val / 5000 := rfl
  obtain ⟨-, -, -, -, e4, e5⟩ := index_rows0 t
  refine ⟨t, flush0_2 t, ?_⟩
  rw [mem_block_gemm]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the region the output array is the whole product of the input array with the weights. -/
theorem final_gemm (c : Dev nD) : (dat0 V c).arrAt 2 cfg0.N = product (V c main_arg0) (V c main_arg5) :=
  (dat0 V c).arrAt_eq_of_cover 2 (product (V c main_arg0) (V c main_arg5)) (fun t _ => flushed_gemm V c t) cover_gemm

end Cert.KernelIdeal.GemmRegion

end
-- ==== Proof.Region1Value.lean ====
import proofs.«134357_j66511863546445_1_alg».proof.Proof.Gen.KernelIdeal.Frame
import Idealize.ShloMosaic.Lib.Pipeline.Value
import Idealize.ShloMosaic.Lib.ValueIdx

/-!
# The second region: the exponential linear unit, entry by entry

The second kernel walks the 200000 × 256 array of summed messages in 100 blocks of 2000 rows. At every grid point it
loads its block, computes `a` where `a > 0` and `eᵃ − 1` elsewhere at each entry, and stores the result as the same block
of the output. Each entry of the output therefore depends on the one entry of the input at the same place, and the
100 blocks tile the array: after the region the output array is that function applied to the input array entry by
entry, whatever the input array holds when the region is entered.
-/

set_option maxRecDepth 16384

noncomputable section

open Idealize.ShloMosaic Idealize.ShloMosaic.TcCoe Idealize.SL.Sem
open Idealize.ShloMosaic.Pipeline (Dat)

namespace Cert.KernelIdeal.EluRegion

open Cert.KernelIdeal Cert.KernelIdeal.Gen Idealize.ShloMosaic.ValueIdx

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The kernel's unit at one number: `y` where `y > 0`, else `eʸ` minus the float one. -/
def eluPt (y : Elt F .f32) : Elt F .f32 :=
  Scalar.select (FloatOps.cmpf .ogt y (Scalar.ofBits .f32 0x00000000#32)) y
    (FloatOps.subf (FloatOps.exp y) (Scalar.ofBits .f32 0x3F800000#32))

/-- The unit applied to every entry of a 200000 × 256 array. -/
def eluArr (a : S200000x256.Idx → Elt F .f32) : S200000x256.Idx → Elt F .f32 := fun i => eluPt (a i)

/-- What the body stores is the unit of what it loaded, entry by entry (the body's cast to the same shape changes
    nothing). -/
theorem pay_elu (x : Vec F S2000x256 .f32) : k1_pay1 x = fun j => eluPt (x j) := by
  unfold k1_pay1
  simp only [shapeCast_self]
  rfl

/-- Both windows of the region sit at block row `t`, block column 0, at grid point `t`. -/
theorem index_rows1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What grid point `t` writes back is block `t` of the unit applied to the input array as the region finds it. -/
theorem flushed_elu (c : Dev nD) (t : Fin cfg1.N) :
    (dat1 V c).flushed 1 t = ((cfg1.win 1).blk t).view.read (Elt F) (eluArr (V c main_v13)) := by
  show (cfg1.win 1).cut (grid1.coords t) ((dat1 V c).after 1 t) = _
  rw [after1_1]
  unfold out1_1
  rw [View.canon_unit_zero zero_offsets]
  simp only [View.ld_unit_zero (S := S2000x256) zero_offsets]
  rw [pay_elu]
  obtain ⟨e0, e1, e2, e3⟩ := index_rows1 t
  funext j
  show eluPt (V c main_v13 (((cfg1.win 0).blk t).view.emb j)) = eluPt (V c main_v13 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 2000 + 1 * (j 0).val = win1_1.index t (0 : Fin 2) * 2000 + 1 * (j 0).val; omega
    | ⟨1, _⟩ => show win1_0.index t (1 : Fin 2) * 256 + 1 * (j 1).val = win1_1.index t (1 : Fin 2) * 256 + 1 * (j 1).val; omega
  rw [h0]

/-- An index of the output array lies in point `t`'s block iff each coordinate lies in the block's range. -/
theorem mem_block_elu (t : Fin cfg1.N) (i : S200000x256.Idx) :
    i ∈ ((cfg1.win 1).blk t).view.set ↔ ∀ a : Fin 2, win1_1.index t a * S2000x256.size a ≤ (i a).val ∧ (i a).val < win1_1.index t a * S2000x256.size a + S2000x256.size a := by
  show i ∈ ((View.whole main_v14).slice (win1_1.rect t)).set ↔ _
  rw [View.set_slice_whole, Rect.mem_set_unit]
  exact Iff.rfl

/-- Row `r` of the output lies in the block of grid point `r / 2000`: the blocks cover the array. -/
theorem cover_elu (i : S200000x256.Idx) :
    ∃ t : Fin cfg1.N, (cfg1.win 1).flush t = true ∧ i ∈ ((cfg1.win 1).blk t).view.set := by
  have hi0 : (i 0).val < 200000 := idx2_lt0 i
  have hi1 : (i 1).val < 256 := idx2_lt1 i
  have hN : cfg1.N = 100 := N_1
  let t : Fin cfg1.N := ⟨(i 0).val / 2000, by rw [hN]; omega⟩
  have ht : t.val = (i 0).val / 2000 := rfl
  obtain ⟨_, _, e2, e3⟩ := index_rows1 t
  refine ⟨t, flush1_1 t, ?_⟩
  rw [mem_block_elu]
  intro a
  match a with
  | ⟨0, _⟩ => show win1_1.index t (0 : Fin 2) * 2000 ≤ (i 0).val ∧ (i 0).val < win1_1.index t (0 : Fin 2) * 2000 + 2000; omega
  | ⟨1, _⟩ => show win1_1.index t (1 : Fin 2) * 256 ≤ (i 1).val ∧ (i 1).val < win1_1.index t (1 : Fin 2) * 256 + 256; omega

/-- After the region the output array is the unit of the input array, entry by entry. -/
theorem final_elu (c : Dev nD) : (dat1 V c).arrAt 1 cfg1.N = eluArr (V c main_v13) :=
  (dat1 V c).arrAt_eq_of_cover 1 (eluArr (V c main_v13)) (fun t _ => flushed_elu V c t) cover_elu

end Cert.KernelIdeal.EluRegion

end
-- ==== Proof.HostMid.lean ====
import proofs.«134357_j66511863546445_1_alg».proof.Proof.Gen.KernelIdeal.Frame
import Idealize.ShloMosaic.Lib.StableHlo.Run

/-!
# Between the two regions: gather, scale, sum by destination row

Between its two kernels the program runs sixteen host operations. They read the first kernel's output `msg` and three
arguments — the destination rows, the source columns and the values of the 400000 stored entries — and write, last, the
array the second kernel reads: entry `e` contributes `vals e · msg[cols e]` (a negative `cols e` first wrapped by adding
the 100000 rows) to row `rows e` of an array that starts at zero. Here that array is named as one function `agg` of
those four, whatever valuation the stretch starts from.
-/

noncomputable section

namespace Cert.KernelIdeal.HostMid

open Cert.KernelIdeal Cert.KernelIdeal.Gen Idealize.ShloMosaic Idealize.ShloMosaic.TcCoe Idealize.SL.Sem Idealize.ShloMosaic.StableHlo

variable {F : FTy → Type} [FloatOps F]

/-- The messages gathered, scaled and summed by destination row. -/
def agg (msg : FVec F S100000x256 .f32) (rows cols : IVec S400000 32) (vals : FVec F S400000 .f32) : FVec F S200000x256 .f32 :=
  Host.scatterAdd scatter_S200000x256_S400000x1_S400000x256_1_0_0_1
    (broadcastInDim S200000x256 ![] bcast_S_S200000x256 (constant S_ .f32 0x00000000#32))
    (broadcastInDim S400000x1 ![0] bcast_S400000_S400000x1_0 rows)
    (mulf
      (Host.gather gather_S100000x256_S400000x1_S400000x256_1_0_n_n_0_1_1256 msg
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 100000#32))) cols)))
      (broadcastInDim S400000x256 ![0, 1] bcast_S400000x1_S400000x256_0_1
        (broadcastInDim S400000x1 ![0] bcast_S400000_S400000x1_0 vals)))

attribute [local irreducible] Host.gather Host.scatterAdd in
set_option maxRecDepth 8192 in
/-- The stretch's fold read at the buffer the second kernel reads is `agg` of the first kernel's output and the three
    arguments, at the valuation the stretch starts from: the fold unrolled, each operation deciding whether the
    buffer read is the one it writes; the gather and the sum by destination row stay folded. -/
theorem after_v13 (W : Valuation τ sig (Elt F)) :
    after hostOps1 W (Proc.devRef .tc main_v13)
      = agg (W (Proc.devRef .tc main_v0)) (W (Proc.devRef .tc main_arg2)) (W (Proc.devRef .tc main_arg3))
          (W (Proc.devRef .tc main_arg4)) := by
  simp only [after_cons, after_nil]
  rfl

end Cert.KernelIdeal.HostMid

end
-- ==== Proof.KernelValue.lean ====
import proofs.«134357_j66511863546445_1_alg».proof.Proof.KernelRun
import proofs.«134357_j66511863546445_1_alg».proof.Proof.Region0Value
import proofs.«134357_j66511863546445_1_alg».proof.Proof.Region1Value
import proofs.«134357_j66511863546445_1_alg».proof.Proof.HostMid

/-!
# What the kernel's program returns

Reading the run back from its end: the result array is what the second region leaves in its output window — the
exponential linear unit, entry by entry, of the array it finds in its input window —; that array is what the host
stretch computes from the first region's output and three arguments (`agg`); and the first region's output is the whole
product of the first argument with the weights. The three argument arrays the stretch reads are written by nothing
before it, so it finds them as launched.
-/

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (ρ : Dev nD → PrngReg)

/-- The program's result from the launch contents of the five arguments it reads. -/
def result (x : S100000x256.Idx → EReal) (w : S256x256.Idx → EReal) (rows cols : IVec S400000 32) (vals : S400000.Idx → EReal) :
    S200000x256.Idx → EReal :=
  EluRegion.eluArr (F := Ideal) (HostMid.agg (F := Ideal) (GemmRegion.product x w) rows cols vals)

/-- The first region's output, as the host stretch finds it, is the whole product of the launched input and weights. -/
theorem msg_eq (c : Dev nD) :
    W1 m ρ c (Proc.devRef .tc main_v0)
      = GemmRegion.product (m ((c.tc : Thread nD τ).loc main_arg0)) (m ((c.tc : Thread nD τ).loc main_arg5)) :=
  (W1_arr m ρ c 2).trans (GemmRegion.final_gemm (V0 m ρ) c)

/-- The array the second region reads is `agg` of that product and of the three arguments as launched. -/
theorem agg_eq (c : Dev nD) :
    V2 m ρ c main_v13
      = HostMid.agg (F := Ideal)
          (GemmRegion.product (m ((c.tc : Thread nD τ).loc main_arg0)) (m ((c.tc : Thread nD τ).loc main_arg5)))
          (m ((c.tc : Thread nD τ).loc main_arg2)) (m ((c.tc : Thread nD τ).loc main_arg3)) (m ((c.tc : Thread nD τ).loc main_arg4)) := by
  show StableHlo.after hostOps1 (W1 m ρ c) (Proc.devRef .tc main_v13) = _
  rw [HostMid.after_v13, msg_eq, W1_of_ne m ρ c main_arg2 (by decide), W1_of_ne m ρ c main_arg3 (by decide),
    W1_of_ne m ρ c main_arg4 (by decide)]

/-- The result array at the end of the run. -/
theorem result_eq (c : Dev nD) :
    W3 m ρ c (Proc.devRef .tc main_v14)
      = result (m ((c.tc : Thread nD τ).loc main_arg0)) (m ((c.tc : Thread nD τ).loc main_arg5))
          (m ((c.tc : Thread nD τ).loc main_arg2)) (m ((c.tc : Thread nD τ).loc main_arg3)) (m ((c.tc : Thread nD τ).loc main_arg4)) := by
  refine (W3_arr m ρ c 1).trans ?_
  rw [EluRegion.final_elu (V2 m ρ) c, agg_eq]
  rfl

/-- Every weakly fair execution of the kernel's program terminates with the result array at `result` of the launch
    contents of the arguments, and the six arguments unchanged. -/
theorem run : θ_run defs (onTc (τ := τ) (main (F := Ideal))) ⟨m, fun _ => 0, ρ⟩ fun r => ∀ c : Dev nD,
      r.2.mem ((c.tc : Thread nD τ).loc main_v14)
          = result (m ((c.tc : Thread nD τ).loc main_arg0)) (m ((c.tc : Thread nD τ).loc main_arg5))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (result_eq m ρ c), (h c).2⟩) (ValueRun.run_main m ρ)

end Cert.KernelIdeal.Value

end
-- ==== Proof.RefRun.lean ====
import proofs.«134357_j66511863546445_1_alg».proof.Proof.Gen.ReferenceIdeal
import Idealize.ShloMosaic.Lib.StableHlo.Run

/-!
# The reference, run

The reference computes, on the host and in this order: the dense product `msg = x₀ · W`; for each of the 400000
stored entries `e` of the incidence matrix the row `msg[cols e]` scaled by `vals e` (a negative column index first
wrapped by adding the 100000 rows, as array indexing does); the sum of those scaled rows into the row `rows e` of a
zero 200000 × 256 array; and the exponential linear unit of every entry of that sum, which `jax.nn.elu` spells
`where(a > 0, a, 1 · expm1(where(a > 0, 0, a)))` through two outlined `where` functions. Here @main is laid out as the
straight line of its 31 operations, the three calls unfolded in place, and run: every execution ends with the result
array at `out` of the five arguments it reads, the arguments unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The messages gathered, scaled and summed by destination row: entry `e` contributes `vals e · msg[cols e]`
    (a negative `cols e` counted from the end) to row `rows e` of an array that starts at zero. -/
def agg (msg : FVec F S100000x256 .f32) (rows cols : IVec S400000 32) (vals : FVec F S400000 .f32) : FVec F S200000x256 .f32 :=
  Host.scatterAdd scatter_S200000x256_S400000x1_S400000x256_1_0_0_1
    (broadcastInDim S200000x256 ![] bcast_S_S200000x256 (constant S_ .f32 0x00000000#32))
    (broadcastInDim S400000x1 ![0] bcast_S400000_S400000x1_0 rows)
    (mulf
      (Host.gather gather_S100000x256_S400000x1_S400000x256_1_0_n_n_0_1_1256 msg
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 100000#32))) cols)))
      (broadcastInDim S400000x256 ![0, 1] bcast_S400000x1_S400000x256_0_1
        (broadcastInDim S400000x1 ![0] bcast_S400000_S400000x1_0 vals)))

/-- `jax.nn.elu` as it lowers: `a` where `a > 0`, elsewhere one times `expm1` of `a` guarded by the same test. -/
def eluHost (a : FVec F S200000x256 .f32) : FVec F S200000x256 .f32 :=
  select (cmpf .ogt a (broadcastInDim S200000x256 ![] bcast_S_S200000x256 (constant S_ .f32 0x00000000#32))) a
    (mulf (broadcastInDim S200000x256 ![] bcast_S_S200000x256 (constant S_ .f32 0x3F800000#32))
      (Host.expm1
        (select (cmpf .ogt a (broadcastInDim S200000x256 ![] bcast_S_S200000x256 (constant S_ .f32 0x00000000#32)))
          (broadcastInDim S200000x256 ![] bcast_S_S200000x256 (constant S_ .f32 0x00000000#32)) a)))

/-- What the reference returns, from the contents of the five arguments it reads. -/
def out (x : FVec F S100000x256 .f32) (w : FVec F S256x256 .f32) (rows cols : IVec S400000 32) (vals : FVec F S400000 .f32) :
    FVec F S200000x256 .f32 :=
  eluHost (agg (Host.dotGeneral dot_S100000x256_S256x256_S100000x256_1_0_0_1_n_n none x w) rows cols vals)

/-- @main's operations in order, the calls unfolded: seventeen of its own (the product, the index wrap, the gather,
    the scaling, the sum by destination row), then `elu`'s fourteen into `main_call0`'s buffers — its first `where`
    three of them (the zero converted to its own type, broadcast, the choice), its second one. -/
abbrev ops : List (HloOp τ sig (Elt F)) :=
  [ binary main_arg0 main_arg5 main_v0 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    nullary main_c (constantI S_ 32 0#32),
    unary main_c main_v1 (broadcastInDim S400000 ![] bcast_S_S400000 : (⟨S_, .i32⟩ : BufTy).Contents (Elt F) → (⟨S400000, .i32⟩ : BufTy).Contents (Elt F)),
    binary main_arg3 main_v1 main_v2 (cmpi .slt : (⟨S400000, .i32⟩ : BufTy).Contents (Elt F) → (⟨S400000, .i32⟩ : BufTy).Contents (Elt F) → (⟨S400000, .i1⟩ : BufTy).Contents (Elt F)),
    nullary main_c_0 (constantI S_ 32 100000#32),
    unary main_c_0 main_v3 (broadcastInDim S400000 ![] bcast_S_S400000 : (⟨S_, .i32⟩ : BufTy).Contents (Elt F) → (⟨S400000, .i32⟩ : BufTy).Contents (Elt F)),
    binary main_arg3 main_v3 main_v4 (addi : (⟨S400000, .i32⟩ : BufTy).Contents (Elt F) → (⟨S400000, .i32⟩ : BufTy).Contents (Elt F) → (⟨S400000, .i32⟩ : BufTy).Contents (Elt F)),
    ternary main_v2 main_v4 main_arg3 main_v5 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v5 main_v6 (broadcastInDim S400000x1 ![0] bcast_S400000_S400000x1_0 : (⟨S400000, .i32⟩ : BufTy).Contents (Elt F) → (⟨S400000x1, .i32⟩ : BufTy).Contents (Elt F)),
    binary main_v0 main_v6 main_v7 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)),
    unary main_arg4 main_v8 (broadcastInDim S400000x1 ![0] bcast_S400000_S400000x1_0 : (⟨S400000, .f32⟩ : BufTy).Contents (Elt F) → (⟨S400000x1, .f32⟩ : BufTy).Contents (Elt F)),
    unary main_v8 main_v9 (broadcastInDim S400000x256 ![0, 1] bcast_S400000x1_S400000x256_0_1 : (⟨S400000x1, .f32⟩ : BufTy).Contents (Elt F) → (⟨S400000x256, .f32⟩ : BufTy).Contents (Elt F)),
    binary main_v7 main_v9 main_v10 (mulf : (⟨S400000x256, .f32⟩ : BufTy).Contents (Elt F) → (⟨S400000x256, .f32⟩ : BufTy).Contents (Elt F) → (⟨S400000x256, .f32⟩ : BufTy).Contents (Elt F)),
    nullary main_cst (constant S_ .f32 0x00000000#32),
    unary main_cst main_v11 (broadcastInDim S200000x256 ![] bcast_S_S200000x256 : (⟨S_, .f32⟩ : BufTy).Contents (Elt F) → (⟨S200000x256, .f32⟩ : BufTy).Contents (Elt F)),
    unary main_arg2 main_v12 (broadcastInDim S400000x1 ![0] bcast_S400000_S400000x1_0 : (⟨S400000, .i32⟩ : BufTy).Contents (Elt F) → (⟨S400000x1, .i32⟩ : BufTy).Contents (Elt F)),
    ternary main_v11 main_v12 main_v10 main_v13 ((fun x i u => Host.scatterAdd scatter_S200000x256_S400000x1_S400000x256_1_0_0_1 x i u) : (⟨S200000x256, .f32⟩ : BufTy).Contents (Elt F) → (⟨S400000x1, .i32⟩ : BufTy).Contents (Elt F) → (⟨S400000x256, .f32⟩ : BufTy).Contents (Elt F) → (⟨S200000x256, .f32⟩ : BufTy).Contents (Elt F)),
    TRef.nullary main_call0.cst (constant S_ .f32 0x00000000#32),
    TRef.unary main_call0.cst main_call0.v0 (broadcastInDim S200000x256 ![] bcast_S_S200000x256),
    TRef.binary (.of main_v13) main_call0.v0 main_call0.v1 (cmpf .ogt),
    TRef.nullary main_call0.cst_0 (constant S_ .f32 0x00000000#32),
    TRef.unary main_call0.cst_0 main_call0.v2 (broadcastInDim S200000x256 ![] bcast_S_S200000x256),
    TRef.binary (.of main_v13) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S200000x256 ![] bcast_S_S200000x256),
    TRef.ternary main_call0.v3 main_call0.call0.v1 (.of main_v13) main_call0.call0.v2 select,
    TRef.unary main_call0.call0.v2 main_call0.v5 Host.expm1,
    TRef.nullary main_call0.cst_2 (constant S_ .f32 0x3F800000#32),
    TRef.unary main_call0.cst_2 main_call0.v6 (broadcastInDim S200000x256 ![] bcast_S_S200000x256),
    TRef.binary main_call0.v6 main_call0.v5 main_call0.v7 mulf,
    TRef.ternary main_call0.v1 (.of main_v13) main_call0.v7 main_call0.call1.v0 select ]

-- thirty-one binds re-associated under the unfolded calls
set_option maxRecDepth 1024 in
/-- @main is that straight line: the three functions' bodies unfolded at their calls, sequencing re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

attribute [local irreducible] Host.gather Host.scatterAdd Host.expm1 in
set_option maxRecDepth 8192 in
/-- The operations' fold read at the result buffer is `out` of the arguments' contents: the fold unrolled, each
    operation deciding whether the buffer read is the one it writes. The gather, the sum by destination row and
    `expm1` stay folded: the equation never looks inside them. -/
theorem out_eq (V : Valuation τ sig (Elt F)) :
    after ops V (main_v14 : DevRef τ sig)
      = out (V (main_arg0 : DevRef τ sig)) (V (main_arg5 : DevRef τ sig)) (V (main_arg2 : DevRef τ sig))
          (V (main_arg3 : DevRef τ sig)) (V (main_arg4 : DevRef τ sig)) := by
  simp only [after_cons, after_nil]
  rfl

/-- On every device, from any memory with zero counters: every weakly fair execution of @main terminates with the
    result array at `out` of the launch contents of the arguments, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = out (m ((c.tc : Thread nD τ).loc main_arg0)) (m ((c.tc : Thread nD τ).loc main_arg5))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v14).trans (out_eq _),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.Hand

end
-- ==== Proof.EluLaw.lean ====
import Idealize.ShloMosaic.PureOps.Ideal.Laws
import Idealize.ShloMosaic.Lib.ValueIdx

/-!
# The exponential linear unit over the extended reals, spelt two ways

With unit slope the exponential linear unit sends `y` to `y` where `y > 0` and to `eʸ − 1` elsewhere. One program
writes the second branch as `eʸ − 1` with the float one subtracted; the other as the float one TIMES `expm1` of `y`
guarded (the guard puts zero in place of `y` where `y > 0`, a branch the outer choice then never takes). Over the
extended reals `expm1 y` is `eʸ − 1` and `1 · z = z` for every `z`, infinite ones included, so the two spellings are one
function: no finiteness is needed.
-/

noncomputable section

namespace Idealize.ShloMosaic.EluLaw

open Idealize.ShloMosaic Idealize.ShloMosaic.ValueIdx

/-- The float word `0x3F800000` is the number one. -/
theorem ofBits_one_f32 : Ideal.ofBits .f32 0x3F800000#32 = 1 := by
  simp [Ideal.ofBits, Ideal.ieee, -EReal.coe_mul]; norm_num

/-- The first spelling at one number: `y` where `y > 0`, else `eʸ` minus the float one. -/
def eluSub (y : EReal) : EReal :=
  Scalar.select (FloatOps.cmpf (F := Ideal) (φ := .f32) .ogt y (Ideal.ofBits .f32 0x00000000#32)) y
    (Ideal.exp y - Ideal.ofBits .f32 0x3F800000#32)

/-- The second spelling at one number: `y` where `y > 0`, else the float one times `expm1` of the guarded `y`. -/
def eluExpm1 (y : EReal) : EReal :=
  Scalar.select (FloatOps.cmpf (F := Ideal) (φ := .f32) .ogt y (Ideal.ofBits .f32 0x00000000#32)) y
    (Ideal.ofBits .f32 0x3F800000#32 *
      FloatOps.hostUnary (F := Ideal) (φ := .f32) .expm1
        (Scalar.select (FloatOps.cmpf (F := Ideal) (φ := .f32) .ogt y (Ideal.ofBits .f32 0x00000000#32))
          (Ideal.ofBits .f32 0x00000000#32) y))

/-- The two spellings agree at every extended real. -/
theorem eluExpm1_eq_eluSub (y : EReal) : eluExpm1 y = eluSub y := by
  unfold eluExpm1 eluSub
  by_cases h : FloatOps.cmpf (F := Ideal) (φ := .f32) .ogt y (Ideal.ofBits .f32 0x00000000#32) = 1#1
  · rw [h, select_one, select_one]
  · rw [eq_zero_of_ne_one h, select_zero, select_zero, select_zero, Ideal.hostUnary_expm1_def, ofBits_one_f32, one_mul]

end Idealize.ShloMosaic.EluLaw

end
-- ==== Proof.Bridge.lean ====
import proofs.«134357_j66511863546445_1_alg».proof.Proof.KernelValue
import proofs.«134357_j66511863546445_1_alg».proof.Proof.RefRun
import proofs.«134357_j66511863546445_1_alg».proof.Proof.EluLaw

/-!
# The two programs return the same array

From equal arguments the kernel's program returns `elu(agg(x · w))` with the product computed block of rows by block
of rows on the matrix unit and the unit spelt `a` or `eᵃ − 1`; the reference returns the same composition with the
product one host `dot_general` and the unit spelt `a` or `1 · expm1(guarded a)`. Over the extended reals the products
are one function (both are `Σₖ x (r, k) · w (k, n)` at every entry, shown in the first region's module), the middle
stretch is literally the same operations, and the two spellings of the unit agree at every extended real. No
finiteness of the inputs is used.
-/

noncomputable section

open Idealize.ShloMosaic Idealize.ShloMosaic.TcCoe Idealize.SL.Sem

namespace Cert.Bridge

/-- The reference's product is the whole product the kernel's first region leaves: its dimension numbers are the
    plain rows-by-columns ones. -/
theorem product_eq (x : Cert.ReferenceIdeal.S100000x256.Idx → EReal) (w : Cert.ReferenceIdeal.S256x256.Idx → EReal) :
    Host.dotGeneral (F := Ideal) (φ₁ := .f32) (φ₂ := .f32) Cert.ReferenceIdeal.dot_S100000x256_S256x256_S100000x256_1_0_0_1_n_n none x w
      = Cert.KernelIdeal.GemmRegion.product x w := rfl

/-- The stretch between the product and the unit is the same function in both programs. -/
theorem agg_eq (msg : Cert.ReferenceIdeal.S100000x256.Idx → EReal) (rows cols : IVec Cert.ReferenceIdeal.S400000 32)
    (vals : Cert.ReferenceIdeal.S400000.Idx → EReal) :
    Cert.ReferenceIdeal.Hand.agg (F := Ideal) msg rows cols vals = Cert.KernelIdeal.HostMid.agg (F := Ideal) msg rows cols vals := rfl

/-- The reference's spelling of the unit is the kernel's, entry by entry. -/
theorem elu_eq (a : Cert.ReferenceIdeal.S200000x256.Idx → EReal) :
    Cert.ReferenceIdeal.Hand.eluHost (F := Ideal) a = Cert.KernelIdeal.EluRegion.eluArr (F := Ideal) a := by
  funext i
  exact EluLaw.eluExpm1_eq_eluSub (a i)

/-- What the reference returns is what the kernel's program returns, from the same five arrays. -/
theorem out_eq (x : Cert.ReferenceIdeal.S100000x256.Idx → EReal) (w : Cert.ReferenceIdeal.S256x256.Idx → EReal)
    (rows cols : IVec Cert.ReferenceIdeal.S400000 32) (vals : Cert.ReferenceIdeal.S400000.Idx → EReal) :
    Cert.ReferenceIdeal.Hand.out (F := Ideal) x w rows cols vals = Cert.KernelIdeal.Value.result x w rows cols vals := by
  unfold Cert.ReferenceIdeal.Hand.out Cert.KernelIdeal.Value.result
  rw [elu_eq, agg_eq, product_eq]

end Cert.Bridge

end
-- ==== Proof.lean ====
/- The certificate of `Cert.Claim`: a two-kernel message-passing layer against its jnp reference, over the extended reals.

   The layer: `msg = x₀ · W` (100000 × 256 by 256 × 256); for each of 400000 stored entries `e` of an incidence matrix,
   `vals e · msg[cols e]` added into row `rows e` of a 200000 × 256 array of zeros; the exponential linear unit of every
   entry. The kernel's program computes the product on the matrix unit, 5000 rows at a grid point, leaves the gather and
   the sum by destination row to the same host operations the reference uses, and applies the unit in a second kernel,
   2000 rows at a grid point, spelt `a` where `a > 0` and `eᵃ − 1` elsewhere; the reference spells it
   `where(a > 0, a, 1 · expm1(where(a > 0, 0, a)))`.

   The three frames: the two kernel programs' are the generated launch over their two regions; the reference's is its run
   with the result dropped. `preserves` has no entry (nothing was rewritten for the idealization). `algebraic`: both runs end
   with the result array at ONE function of the arguments (Proof/KernelValue.lean, Proof/RefRun.lean, Proof/Bridge.lean):
   the blockwise products tile the whole product, the middle stretch is shared, and the two spellings of the unit agree at
   every extended real because `expm1 y = eʸ − 1` and `1 · z = z` there. No finiteness of the inputs is needed. -/
import proofs.«134357_j66511863546445_1_alg».proof.Defs
import proofs.«134357_j66511863546445_1_alg».proof.Proof.Gen.Kernel
import proofs.«134357_j66511863546445_1_alg».proof.Proof.Gen.Kernel.Skeleton
import proofs.«134357_j66511863546445_1_alg».proof.Proof.Gen.Kernel.Launch
import proofs.«134357_j66511863546445_1_alg».proof.Proof.Gen.Kernel.Points
import proofs.«134357_j66511863546445_1_alg».proof.Proof.Gen.Kernel.Frame
import proofs.«134357_j66511863546445_1_alg».proof.Proof.Gen.KernelIdeal
import proofs.«134357_j66511863546445_1_alg».proof.Proof.Gen.KernelIdeal.Skeleton
import proofs.«134357_j66511863546445_1_alg».proof.Proof.Gen.KernelIdeal.Launch
import proofs.«134357_j66511863546445_1_alg».proof.Proof.Gen.KernelIdeal.Points
import proofs.«134357_j66511863546445_1_alg».proof.Proof.Gen.KernelIdeal.Frame
import proofs.«134357_j66511863546445_1_alg».proof.Proof.Gen.ReferenceIdeal
import proofs.«134357_j66511863546445_1_alg».proof.Proof.Gen.Pre_finite_inputs
import proofs.«134357_j66511863546445_1_alg».proof.Proof.KernelValue
import proofs.«134357_j66511863546445_1_alg».proof.Proof.RefRun
import proofs.«134357_j66511863546445_1_alg».proof.Proof.Bridge
import Idealize.ShloMosaic.Adequacy
import Idealize.ShloMosaic.Init

noncomputable section

namespace Cert.Proof

open Idealize.ShloMosaic Idealize.SL.Sem

/-- The word-level kernel program runs and keeps its arguments: the generated launch over its two regions. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories that agree on the arguments both programs end with the result array at the same function of them. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, -, e2, e3, e4, e5⟩ := hagree c
  rw [e0, e2, e3, e4, e5]
  exact Cert.Bridge.out_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
